-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S256x64 : Shape := ⟨2, ![256, 64]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_

variable [Facts]

def fn {F : FTy → Type} [FloatOps F] (main_arg0 : FVec F S8192x256 .f32) (main_arg1 : FVec F S256x64 .f32) (main_arg2 : FVec F S256x64 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S256x64 .f32 := Host.absf main_arg1
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S256x64 .f32 := Host.absf main_arg2
  let main_cst_2 : FVec F S_ .f32 := constant S_ .f32 0x7F800000#32
  let main_v10 : FVec F S256x64 .f32 := broadcastInDim S256x64 ![] bcast_S_S256x64 main_cst_2
  let main_v11 : IVec S256x64 1 := cmpf .olt main_v9 main_v10
  let main_c_3 : IVec S_ 1 := constantI S_ 1 1#1
  let main_v12 : IVec S_ 1 := (fun x v => Host.reduce IntOp.andi x v reducesTo_S256x64_S_d0_1 h_S_) main_v11 main_c_3
  let main_v13 : IVec S_ 1 := andi main_v8 main_v12
  main_v13
-- ==== Kernel.lean ====
abbrev S8192x256 : Shape := ⟨2, ![8192, 256]⟩
abbrev S256x64 : Shape := ⟨2, ![256, 64]⟩
abbrev S8192x64 : Shape := ⟨2, ![8192, 64]⟩
abbrev S2048x256 : Shape := ⟨2, ![2048, 256]⟩
abbrev S2048x64 : Shape := ⟨2, ![2048, 64]⟩
abbrev S64 : Shape := ⟨1, ![64]⟩
abbrev S1x64 : Shape := ⟨2, ![1, 64]⟩

abbrev nBuf : Space → Nat
  | .hbm => 4
  | .vmem => 6
  | .smem => 0
  | _ => 0

abbrev bufTy : (tb : Table) → Fin (tcTables nBuf tb) → BufTy
  | .hbm, ⟨0, _⟩ => ⟨S8192x256, .f32⟩
  | .hbm, ⟨1, _⟩ => ⟨S256x64, .f32⟩
  | .hbm, ⟨2, _⟩ => ⟨S256x64, .f32⟩
  | .hbm, ⟨3, _⟩ => ⟨S8192x64, .f32⟩
  | .local _ .vmem, ⟨0, _⟩ => ⟨S2048x256, .f32⟩
  | .local _ .vmem, ⟨1, _⟩ => ⟨S2048x256, .f32⟩
  | .local _ .vmem, ⟨2, _⟩ => ⟨S256x64, .f32⟩
  | .local _ .vmem, ⟨3, _⟩ => ⟨S256x64, .f32⟩
  | .local _ .vmem, ⟨4, _⟩ => ⟨S2048x64, .f32⟩
  | .local _ .vmem, ⟨5, _⟩ => ⟨S2048x64, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S2048x256_S2048x256_0_0 : ∀ a, (![0, 0] : Fin 2 → Nat) a + S2048x256.size a ≤ S2048x256.size a
  h_S2048x256 : 0 < S2048x256.numel
  inb_S256x64_S256x64_0_0 : ∀ a, (![0, 0] : Fin 2 → Nat) a + S256x64.size a ≤ S256x64.size a
  h_S256x64 : 0 < S256x64.numel
  reduces_S256x64_S64 : S256x64.Reduces [0] S64
  shapeCasts_S64_S1x64 : S64.ShapeCasts S1x64
  broadcasts_S1x64_S2048x64 : S1x64.Broadcasts S2048x64
  inb_S2048x64_S2048x64_0_0 : ∀ a, (![0, 0] : Fin 2 → Nat) a + S2048x64.size a ≤ S2048x64.size a
  h_S2048x64 : 0 < S2048x64.numel
  dot_S2048x256_S256x64_S2048x64_1_0_0_1_n_n_wf : DotDims.WF S2048x256 S256x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S8192x256.size a
  hwx0_0 : ∀ i : grid0.Coords, EltTy.bits .f32 = 32 ∨ (Rect.block (s := S8192x256) S2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x64.size a ≤ S256x64.size a
  hwx0_2 : ∀ i : grid0.Coords, EltTy.bits .f32 = 32 ∨ (Rect.block (s := S256x64) S256x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x64.size a ≤ S8192x64.size a
  hwx0_3 : ∀ i : grid0.Coords, EltTy.bits .f32 = 32 ∨ (Rect.block (s := S8192x64) S2048x64.size (cc0_transform_3 i) (hinb0_3 i)).WholeWords (EltTy.packing .f32)

variable [Facts₀]

def dot_S2048x256_S256x64_S2048x64_1_0_0_1_n_n : DotDims S2048x256 S256x64 S2048x64 where
  lhsContracting := [1]
  rhsContracting := [0]
  lhsNonContracting := [0]
  rhsNonContracting := [1]
  lhsBatch := []
  rhsBatch := []
  wf := dot_S2048x256_S256x64_S2048x64_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S2048x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x256 : Shape := ⟨2, ![8192, 256]⟩
abbrev S256x64 : Shape := ⟨2, ![256, 64]⟩
abbrev S8192x256x1 : Shape := ⟨3, ![8192, 256, 1]⟩
abbrev S1x256x64 : Shape := ⟨3, ![1, 256, 64]⟩
abbrev S8192x256x64 : Shape := ⟨3, ![8192, 256, 64]⟩
abbrev S_ : Shape := ⟨0, ![]⟩
abbrev S8192x64 : Shape := ⟨2, ![8192, 64]⟩

abbrev nBuf : Space → Nat
  | .hbm => 32
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S256x64, .f32⟩
  | .hbm, ⟨2, _⟩ => ⟨S256x64, .f32⟩
  | .hbm, ⟨3, _⟩ => ⟨S8192x256x1, .f32⟩
  | .hbm, ⟨4, _⟩ => ⟨S1x256x64, .f32⟩
  | .hbm, ⟨5, _⟩ => ⟨S8192x256x64, .f32⟩
  | .hbm, ⟨6, _⟩ => ⟨S8192x256x64, .f32⟩
  | .hbm, ⟨7, _⟩ => ⟨S8192x256x64, .f32⟩
  | .hbm, ⟨8, _⟩ => ⟨S1x256x64, .f32⟩
  | .hbm, ⟨9, _⟩ => ⟨S8192x256x64, .f32⟩
  | .hbm, ⟨10, _⟩ => ⟨S8192x256x64, .f32⟩
  | .hbm, ⟨11, _⟩ => ⟨S8192x256x64, .i1⟩
  | .hbm, ⟨12, _⟩ => ⟨S_, .f32⟩
  | .hbm, ⟨13, _⟩ => ⟨S8192x256x64, .f32⟩
  | .hbm, ⟨14, _⟩ => ⟨S8192x256x64, .f32⟩
  | .hbm, ⟨15, _⟩ => ⟨S_, .f32⟩
  | .hbm, ⟨16, _⟩ => ⟨S8192x256x64, .f32⟩
  | .hbm, ⟨17, _⟩ => ⟨S8192x256x64, .i1⟩
  | .hbm, ⟨18, _⟩ => ⟨S_, .f32⟩
  | .hbm, ⟨19, _⟩ => ⟨S8192x256x64, .f32⟩
  | .hbm, ⟨20, _⟩ => ⟨S8192x256x64, .f32⟩
  | .hbm, ⟨21, _⟩ => ⟨S_, .f32⟩
  | .hbm, ⟨22, _⟩ => ⟨S8192x256x64, .f32⟩
  | .hbm, ⟨23, _⟩ => ⟨S8192x256x64, .i1⟩
  | .hbm, ⟨24, _⟩ => ⟨S_, .f32⟩
  | .hbm, ⟨25, _⟩ => ⟨S8192x256x64, .f32⟩
  | .hbm, ⟨26, _⟩ => ⟨S8192x256x64, .f32⟩
  | .hbm, ⟨27, _⟩ => ⟨S_, .f32⟩
  | .hbm, ⟨28, _⟩ => ⟨S8192x64, .f32⟩
  | .hbm, ⟨29, _⟩ => ⟨S_, .f32⟩
  | .hbm, ⟨30, _⟩ => ⟨S8192x64, .f32⟩
  | .hbm, ⟨31, _⟩ => ⟨S8192x64, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_call0_v0 : Ref sig .tc := ⟨.hbm, 11, rfl⟩
abbrev main_call0_cst : Ref sig .tc := ⟨.hbm, 12, rfl⟩
abbrev main_call0_call0_v0 : Ref sig .tc := ⟨.hbm, 13, rfl⟩
abbrev main_call0_v1 : Ref sig .tc := ⟨.hbm, 14, rfl⟩
abbrev main_call0_cst_0 : Ref sig .tc := ⟨.hbm, 15, rfl⟩
abbrev main_call0_v2 : Ref sig .tc := ⟨.hbm, 16, rfl⟩
abbrev main_call0_v3 : Ref sig .tc := ⟨.hbm, 17, rfl⟩
abbrev main_call0_cst_1 : Ref sig .tc := ⟨.hbm, 18, rfl⟩
abbrev main_call0_call1_v0 : Ref sig .tc := ⟨.hbm, 19, rfl⟩
abbrev main_call0_v4 : Ref sig .tc := ⟨.hbm, 20, rfl⟩
abbrev main_call0_cst_2 : Ref sig .tc := ⟨.hbm, 21, rfl⟩
abbrev main_call0_v5 : Ref sig .tc := ⟨.hbm, 22, rfl⟩
abbrev main_call0_v6 : Ref sig .tc := ⟨.hbm, 23, rfl⟩
abbrev main_call0_cst_3 : Ref sig .tc := ⟨.hbm, 24, rfl⟩
abbrev main_call0_call2_v0 : Ref sig .tc := ⟨.hbm, 25, rfl⟩
abbrev main_v8 : Ref sig .tc := ⟨.hbm, 26, rfl⟩
abbrev main_cst : Ref sig .tc := ⟨.hbm, 27, rfl⟩
abbrev main_v9 : Ref sig .tc := ⟨.hbm, 28, rfl⟩
abbrev main_cst_0 : Ref sig .tc := ⟨.hbm, 29, rfl⟩
abbrev main_v10 : Ref sig .tc := ⟨.hbm, 30, rfl⟩
abbrev main_v11 : Ref sig .tc := ⟨.hbm, 31, rfl⟩

abbrev nD : Nat := 1
abbrev τ : Topo := Topo.v7x

variable {F : FTy → Type} [FloatOps F]

class Facts₀ : Prop where
  bcast_S8192x256_S8192x256x1_0_1 : S8192x256.BroadcastsInDim S8192x256x1 (![0, 1] : Fin 2 → Fin S8192x256x1.rank)
  bcast_S256x64_S1x256x64_1_2 : S256x64.BroadcastsInDim S1x256x64 (![1, 2] : Fin 2 → Fin S1x256x64.rank)
  bcast_S8192x256x1_S8192x256x64_0_1_2 : S8192x256x1.BroadcastsInDim S8192x256x64 (![0, 1, 2] : Fin 3 → Fin S8192x256x64.rank)
  bcast_S1x256x64_S8192x256x64_0_1_2 : S1x256x64.BroadcastsInDim S8192x256x64 (![0, 1, 2] : Fin 3 → Fin S8192x256x64.rank)
  bcast_S_S8192x256x64 : S_.BroadcastsInDim S8192x256x64 (![] : Fin 0 → Fin S8192x256x64.rank)
  reducesTo_S8192x256x64_S8192x64_d1 : S8192x256x64.ReducesTo [1] S8192x64
  h_S_ : 0 < S_.numel
  bcast_S_S8192x64 : S_.BroadcastsInDim S8192x64 (![] : Fin 0 → Fin S8192x64.rank)

variable [Facts₀]

class Facts : Prop extends Facts₀ where

variable [Facts]
-- ==== Proof.MeanLinear.lean ====
/-
  The mathematics both programs share, stated once and with no program in sight.

  For a row `n` and an output feature `d` the kernel computes
      clean (((∑ k, x[n,k] · W[k,d]) + ∑ k, b[k,d]) · 2⁻⁸)
  and the reference computes
      (0 + ∑ k, clean (x[n,k] · W[k,d] + b[k,d])) / 256,
  where `clean` is `nan_to_num`: a value that differs from itself becomes `0`, `+∞` becomes the largest finite
  float, `-∞` the smallest.  On the extended reals nothing differs from itself, and a REAL number is neither
  infinity, so on reals `clean` is the identity.  When every input entry is real, every product, every sum and
  the scaled total are real; a sum of sums splits termwise; and dividing by `256` is multiplying by `2⁻⁸`.
  Hence the two expressions are one real number.
-/
import Idealize.ShloMosaic.PureOps.Ideal
import Idealize.ShloMosaic.PureOps.Ideal.Laws
import Idealize.ShloMosaic.Lib.ValueIdx

noncomputable section

open scoped BigOperators

namespace Cert.MeanLinear

open Idealize.ShloMosaic Idealize.ShloMosaic.ValueIdx

/-! ## The float words the two programs spell -/

/-- The word of `256.0` denotes the real `256`. -/
theorem ofBits_256 : Ideal.ofBits .f32 0x43800000#32 = ((256 : ℝ) : EReal) := by
  simp [Ideal.ofBits, Ideal.ieee, -EReal.coe_mul]; norm_num

/-- The word of `0.00390625` denotes the real `1/256`: the power of two `2⁻⁸`, exactly. -/
theorem ofBits_inv256 : Ideal.ofBits .f32 0x3B800000#32 = ((1 / 256 : ℝ) : EReal) := by
  simp [Ideal.ofBits, Ideal.ieee, -EReal.coe_mul]; norm_num

/-- The word of `+inf` denotes the top element. -/
theorem ofBits_posInf : Ideal.ofBits .f32 0x7F800000#32 = ⊤ := by
  simp [Ideal.ofBits, Ideal.ieee]

/-- The word of `-inf` denotes the bottom element. -/
theorem ofBits_negInf : Ideal.ofBits .f32 0xFF800000#32 = ⊥ := by
  simp [Ideal.ofBits, Ideal.ieee]

/-! ## `nan_to_num` on one extended real -/

/-- `nan_to_num` of one value, with the comparison `p` that tests "differs from itself": the three selects in the
    order both programs make them. -/
def clean (p : CmpFPredicate) (v : EReal) : EReal :=
  let v1 := Scalar.select (Ideal.cmp p v v) (Ideal.ofBits .f32 0x00000000#32) v
  let v2 := Scalar.select (Ideal.cmp .oeq v1 (Ideal.ofBits .f32 0x7F800000#32)) (Ideal.ofBits .f32 0x7F7FFFFF#32) v1
  Scalar.select (Ideal.cmp .oeq v2 (Ideal.ofBits .f32 0xFF800000#32)) (Ideal.ofBits .f32 0xFF7FFFFF#32) v2

/-- No extended real differs from itself, under the ordered or the unordered spelling of "not equal". -/
theorem cmp_ne_self (p : CmpFPredicate) (hp : p = .one ∨ p = .une) (v : EReal) : Ideal.cmp p v v = 0#1 := by
  rcases hp with rfl | rfl <;> simp [Ideal.cmp]

/-- Two different extended reals do not compare equal. -/
theorem cmp_oeq_of_ne {x y : EReal} (h : x ≠ y) : Ideal.cmp .oeq x y = 0#1 := by
  simp [Ideal.cmp, h]

/-- On a real number `nan_to_num` is the identity: it equals itself and is neither infinity. -/
theorem clean_coe (p : CmpFPredicate) (hp : p = .one ∨ p = .une) (r : ℝ) : clean p (r : EReal) = (r : EReal) := by
  simp only [clean, cmp_ne_self p hp, select_zero, ofBits_posInf, ofBits_negInf,
    cmp_oeq_of_ne (EReal.coe_ne_top r), cmp_oeq_of_ne (EReal.coe_ne_bot r)]

/-! ## Sums of reals inside the extended reals -/

/-- A finite sum of real numbers, taken in the extended reals, is the real sum. -/
theorem coe_sum {ι : Type*} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-! ## The two expressions -/

/-- What the kernel leaves at row `n`, feature `d`: the row of `x` against the column of `W`, plus the column sum of
    `b`, scaled by `2⁻⁸`, then cleaned. -/
def kernelAt (x : (⟨2, ![8192, 256]⟩ : Shape).Idx → EReal) (W b : (⟨2, ![256, 64]⟩ : Shape).Idx → EReal)
    (n : Fin 8192) (d : Fin 64) : EReal :=
  clean .one (((∑ k : Fin 256, x (ix2 n k) * W (ix2 k d)) + ∑ k : Fin 256, b (ix2 k d)) * Ideal.ofBits .f32 0x3B800000#32)

/-- What the reference leaves there: the sum from zero of the cleaned per-feature lines, divided by `256`. -/
def referenceAt (x : (⟨2, ![8192, 256]⟩ : Shape).Idx → EReal) (W b : (⟨2, ![256, 64]⟩ : Shape).Idx → EReal)
    (n : Fin 8192) (d : Fin 64) : EReal :=
  Ideal.div (Ideal.ofBits .f32 0x00000000#32 + ∑ k : Fin 256, clean .une (x (ix2 n k) * W (ix2 k d) + b (ix2 k d)))
    (Ideal.ofBits .f32 0x43800000#32)

/-- The kernel's result array as one function of the three argument arrays. -/
def kernelFn (x : (⟨2, ![8192, 256]⟩ : Shape).Idx → EReal) (W b : (⟨2, ![256, 64]⟩ : Shape).Idx → EReal) :
    (⟨2, ![8192, 64]⟩ : Shape).Idx → EReal := fun i => kernelAt x W b (i 0) (i 1)

/-- The reference's result array as one function of the three argument arrays. -/
def referenceFn (x : (⟨2, ![8192, 256]⟩ : Shape).Idx → EReal) (W b : (⟨2, ![256, 64]⟩ : Shape).Idx → EReal) :
    (⟨2, ![8192, 64]⟩ : Shape).Idx → EReal := fun i => referenceAt x W b (i 0) (i 1)

/-- With real entries the two expressions are the same real number: `clean` disappears, the sum of sums splits,
    and the quotient by `256` is the product with `1/256`. -/
theorem referenceAt_eq_kernelAt (x : (⟨2, ![8192, 256]⟩ : Shape).Idx → EReal) (W b : (⟨2, ![256, 64]⟩ : Shape).Idx → EReal)
    (hx : ∀ i, ∃ r : ℝ, x i = (r : EReal)) (hW : ∀ i, ∃ r : ℝ, W i = (r : EReal)) (hb : ∀ i, ∃ r : ℝ, b i = (r : EReal))
    (n : Fin 8192) (d : Fin 64) : referenceAt x W b n d = kernelAt x W b n d := by
  choose xr hxr using hx
  choose Wr hWr using hW
  choose br hbr using hb
  unfold referenceAt kernelAt
  simp only [hxr, hWr, hbr, ← EReal.coe_mul, ← EReal.coe_add, clean_coe _ (Or.inr rfl), coe_sum, ofBits_256, ofBits_inv256,
    Ideal.ofBits_zero_f32, zero_add, Ideal.div_coe (by norm_num : (256 : ℝ) ≠ 0)]
  rw [clean_coe _ (Or.inl rfl), Finset.sum_add_distrib]

/-- So under real entries the two result arrays are equal. -/
theorem referenceFn_eq_kernelFn (x : (⟨2, ![8192, 256]⟩ : Shape).Idx → EReal) (W b : (⟨2, ![256, 64]⟩ : Shape).Idx → EReal)
    (hx : ∀ i, ∃ r : ℝ, x i = (r : EReal)) (hW : ∀ i, ∃ r : ℝ, W i = (r : EReal)) (hb : ∀ i, ∃ r : ℝ, b i = (r : EReal)) :
    referenceFn x W b = kernelFn x W b :=
  funext fun i => referenceAt_eq_kernelAt x W b hx hW hb (i 0) (i 1)

end Cert.MeanLinear

end
-- ==== Proof.KernelValue.lean ====
/-
  What the kernel's result array holds after the run, at the ideal instance.

  One grid point `t` (of four) takes rows `2048·t … 2048·t + 2047` of `x`, all of `W` and all of `b`, and writes the
  same rows of the result.  Its body multiplies the row block by `W` on the matrix unit into a zero accumulator — at
  an entry (p, q) that is the sum over `k` of `x_block[p,k] · W[k,q]` —, sums `b` down its columns, stretches that row
  over the block's rows, adds, scales by `2⁻⁸` and cleans.  So the body's value at (p, q) is `MeanLinear.kernelAt` of
  the block's row, and because the block's row `p` is the array's row `2048·t + p`, point `t` writes back exactly
  block `t` of `MeanLinear.kernelFn` of the three argument arrays.  The four blocks tile the result (row `r` lies in
  block `r / 2048`), so the whole result array is `kernelFn` of the arguments.
-/
import proofs.«124771_j25228637896776_1_alg».proof.Defs
import proofs.«124771_j25228637896776_1_alg».proof.Proof.Gen.KernelIdeal.Frame
import proofs.«124771_j25228637896776_1_alg».proof.Proof.Gen.KernelIdeal.Value
import proofs.«124771_j25228637896776_1_alg».proof.Proof.MeanLinear
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Hand

open Cert.KernelIdeal Cert.KernelIdeal.Gen Cert.MeanLinear
open Idealize.ShloMosaic Idealize.ShloMosaic.TcCoe Idealize.SL.Sem Idealize.ShloMosaic.ValueIdx
open Idealize.ShloMosaic.Pipeline (Dat)

/-! ## The matrix product at an entry -/

theorem lhs_row (i : S2048x64.Idx) (q : dot_S2048x256_S256x64_S2048x64_1_0_0_1_n_n.contr.Idx) :
    (dot_S2048x256_S256x64_S2048x64_1_0_0_1_n_n.lhsIdx i q 0).val = (i 0).val := by
  unfold DotDims.lhsIdx
  rw [dif_neg (show ¬(0 : Fin S2048x256.rank) ∈ dot_S2048x256_S256x64_S2048x64_1_0_0_1_n_n.lhsBatch by decide),
    dif_pos (show (0 : Fin S2048x256.rank) ∈ dot_S2048x256_S256x64_S2048x64_1_0_0_1_n_n.lhsNonContracting by decide)]
  rfl

theorem lhs_col (i : S2048x64.Idx) (q : dot_S2048x256_S256x64_S2048x64_1_0_0_1_n_n.contr.Idx) :
    (dot_S2048x256_S256x64_S2048x64_1_0_0_1_n_n.lhsIdx i q 1).val = (q ⟨0, by decide⟩).val :=
  dot_S2048x256_S256x64_S2048x64_1_0_0_1_n_n.lhsIdx_val_of_single rfl i q

theorem rhs_row (i : S2048x64.Idx) (q : dot_S2048x256_S256x64_S2048x64_1_0_0_1_n_n.contr.Idx) :
    (dot_S2048x256_S256x64_S2048x64_1_0_0_1_n_n.rhsIdx i q 0).val = (q ⟨0, by decide⟩).val :=
  dot_S2048x256_S256x64_S2048x64_1_0_0_1_n_n.rhsIdx_val_of_single rfl i q

theorem rhs_col (i : S2048x64.Idx) (q : dot_S2048x256_S256x64_S2048x64_1_0_0_1_n_n.contr.Idx) :
    (dot_S2048x256_S256x64_S2048x64_1_0_0_1_n_n.rhsIdx i q 1).val = (i 1).val := by
  unfold DotDims.rhsIdx
  rw [dif_neg (show ¬(1 : Fin S256x64.rank) ∈ dot_S2048x256_S256x64_S2048x64_1_0_0_1_n_n.rhsBatch by decide),
    dif_pos (show (1 : Fin S256x64.rank) ∈ dot_S2048x256_S256x64_S2048x64_1_0_0_1_n_n.rhsNonContracting by decide)]
  rfl

/-- The product of a [2048, 256] block with a [256, 64] matrix into a zero accumulator, read at (p, q): the sum over
    the shared axis of the products. -/
theorem matmul_at (x0 : FVec Ideal S2048x256 .f32) (x1 : FVec Ideal S256x64 .f32) (p : Fin 2048) (q : Fin 64) :
    matmul dot_S2048x256_S256x64_S2048x64_1_0_0_1_n_n none x0 x1 (constant (F := Ideal) S2048x64 .f32 0x00000000#32) (ix2 p q)
      = ∑ k : Fin 256, x0 (ix2 p k) * x1 (ix2 k q) := by
  simp only [matmul]
  rw [Ideal.matmul_constant_zero_apply, ← Equiv.sum_comp (contrEquiv1 dot_S2048x256_S256x64_S2048x64_1_0_0_1_n_n 256 rfl rfl).symm]
  refine Finset.sum_congr rfl fun k _ => ?_
  have hk := contrEquiv1_symm_val dot_S2048x256_S256x64_S2048x64_1_0_0_1_n_n 256 rfl rfl k
  have el : dot_S2048x256_S256x64_S2048x64_1_0_0_1_n_n.lhsIdx (ix2 p q) ((contrEquiv1 dot_S2048x256_S256x64_S2048x64_1_0_0_1_n_n 256 rfl rfl).symm k) = ix2 p k := funext fun a => Fin.ext (by
    match a with
    | ⟨0, _⟩ => exact lhs_row _ _
    | ⟨1, _⟩ => exact (lhs_col _ _).trans hk)
  have er : dot_S2048x256_S256x64_S2048x64_1_0_0_1_n_n.rhsIdx (ix2 p q) ((contrEquiv1 dot_S2048x256_S256x64_S2048x64_1_0_0_1_n_n 256 rfl rfl).symm k) = ix2 k q := funext fun a => Fin.ext (by
    match a with
    | ⟨0, _⟩ => exact (rhs_row _ _).trans hk
    | ⟨1, _⟩ => exact rhs_col _ _)
  rw [el, er]

/-! ## The column sums of the bias, stretched over the rows -/

/-- The column sums of a [256, 64] array, as a row stretched over 2048 rows, read at (p, q): the sum down column q. -/
theorem bias_at (x2 : FVec Ideal S256x64 .f32) (hr : S256x64.Reduces [0] S64) (hc : S64.ShapeCasts S1x64)
    (hb : S1x64.Broadcasts S2048x64) (hacc : (0x00000000#32 : BitVec 32) = 0x00000000#32) (p : Fin 2048) (q : Fin 64) :
    broadcastTo S2048x64 (shapeCast S1x64 (multiReduction .add [0] S64 x2 0x00000000#32 hr (.inl rfl) hacc) hc) hb (ix2 p q)
      = ∑ k : Fin 256, x2 (ix2 k q) := by
  refine (broadcastTo_1b_ab_apply _ hb p q).trans ?_
  refine (shapeCast_a_1a_apply _ hc (0 : Fin 1) q).trans ?_
  refine (Ideal.multiReduction_add_single x2 0x00000000#32 hr (.inl rfl) hacc (ix1 q)).trans ?_
  refine Finset.sum_congr rfl fun k _ => congrArg x2 (funext fun a => Fin.ext ?_)
  match a with
  | ⟨0, _⟩ => rfl
  | ⟨1, _⟩ => rfl

/-! ## The body's value at an entry -/

/-- The body's one store, read at (p, q), is `kernelAt` of its three loaded blocks. -/
theorem payload_at (x0 : FVec Ideal S2048x256 .f32) (x1 x2 : FVec Ideal S256x64 .f32) (p : Fin 2048) (q : Fin 64) :
    k0_pay1 (F := Ideal) x0 x1 x2 (ix2 p q)
      = clean .one (((∑ k : Fin 256, x0 (ix2 p k) * x1 (ix2 k q)) + ∑ k : Fin 256, x2 (ix2 k q)) * Ideal.ofBits .f32 0x3B800000#32) := by
  unfold k0_pay1
  simp only [select_apply, cmpf_apply, broadcast_apply, mulf_apply, addf_apply]
  rw [matmul_at, bias_at]
  rfl

end Cert.KernelIdeal.Hand

end
-- ==== Proof.KernelArray.lean ====
/-
  From the body's value at an entry to the whole result array.

  Window 0 (`x`) and window 3 (the result) move together: at grid point `t` both sit on row block `t`, so entry
  (p, ·) of either block is entry (2048·t + p, ·) of its array.  Windows 1 and 2 (`W`, `b`) never move: their one
  block is the whole array.  Hence what point `t` writes back is block `t` of `kernelFn` of the three arrays as the
  region finds them.  Every row `r` of the result lies in block `r / 2048`, which some point writes, so after the run
  the result array is `kernelFn` of the arguments, entry by entry.
-/
import proofs.«124771_j25228637896776_1_alg».proof.Proof.KernelValue

noncomputable section

open scoped BigOperators

namespace Cert.KernelIdeal.Hand

open Cert.KernelIdeal Cert.KernelIdeal.Gen Cert.MeanLinear
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The printed index maps, decided over the four grid points: `x` and the result are on row block `t`, column
    block 0; `W` and `b` are on block (0, 0) throughout. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of `x`'s block at point `t` is row `2048·t + p` of `x`. -/
theorem xblock_at (c : Dev nD) (t : Fin cfg0.N) (p : Fin 2048) (k : Fin 256) (n : Fin 8192) (hn : n.val = 2048 * t.val + p.val) :
    (iblk m c 0 t : FVec Ideal S2048x256 .f32) (ix2 p k) = (V m c main_arg0 : FVec Ideal S8192x256 .f32) (ix2 n k) := by
  obtain ⟨e0, e1, -⟩ := block_indices t
  unfold iblk
  rw [View.read_apply]
  show V m c main_arg0 _ = V m c main_arg0 _
  congr 1
  funext a
  apply Fin.ext
  match a with
  | ⟨0, _⟩ => show win0_0.index t 0 * 2048 + 1 * p.val = n.val; rw [e0, hn]; omega
  | ⟨1, _⟩ => show win0_0.index t 1 * 256 + 1 * k.val = k.val; rw [e1]; omega

/-- `W`'s block at any point is `W`. -/
theorem wblock_at (c : Dev nD) (t : Fin cfg0.N) (k : Fin 256) (d : Fin 64) :
    (iblk m c 1 t : FVec Ideal S256x64 .f32) (ix2 k d) = (V m c main_arg1 : FVec Ideal S256x64 .f32) (ix2 k d) := by
  obtain ⟨-, -, e0, e1, -⟩ := block_indices t
  unfold iblk
  rw [View.read_apply]
  show V m c main_arg1 _ = V m c main_arg1 _
  congr 1
  funext a
  apply Fin.ext
  match a with
  | ⟨0, _⟩ => show win0_1.index t 0 * 256 + 1 * k.val = k.val; rw [e0]; omega
  | ⟨1, _⟩ => show win0_1.index t 1 * 64 + 1 * d.val = d.val; rw [e1]; omega

/-- `b`'s block at any point is `b`. -/
theorem bblock_at (c : Dev nD) (t : Fin cfg0.N) (k : Fin 256) (d : Fin 64) :
    (iblk m c 2 t : FVec Ideal S256x64 .f32) (ix2 k d) = (V m c main_arg2 : FVec Ideal S256x64 .f32) (ix2 k d) := by
  obtain ⟨-, -, -, -, e0, e1, -⟩ := block_indices t
  unfold iblk
  rw [View.read_apply]
  show V m c main_arg2 _ = V m c main_arg2 _
  congr 1
  funext a
  apply Fin.ext
  match a with
  | ⟨0, _⟩ => show win0_2.index t 0 * 256 + 1 * k.val = k.val; rw [e0]; omega
  | ⟨1, _⟩ => show win0_2.index t 1 * 64 + 1 * d.val = d.val; rw [e1]; omega

/-- The body's value at entry `y` of point `t`'s block is `kernelFn` of the arrays at the entry `i` it lands on. -/
theorem block_entry (c : Dev nD) (t : Fin cfg0.N) (y : S2048x64.Idx) (i : S8192x64.Idx)
    (h0 : (i 0).val = 2048 * t.val + (y 0).val) (h1 : (i 1).val = (y 1).val) :
    k0_pay1 (F := Ideal) (iblk m c 0 t) (iblk m c 1 t) (iblk m c 2 t) y
      = kernelFn (V m c main_arg0) (V m c main_arg1) (V m c main_arg2) i := by
  obtain ⟨p, q, rfl⟩ : ∃ (p : Fin 2048) (q : Fin 64), y = ix2 p q := ⟨y 0, y 1, eq_ix2 y⟩
  obtain ⟨n, d, rfl⟩ : ∃ (n : Fin 8192) (d : Fin 64), i = ix2 n d := ⟨i 0, i 1, eq_ix2 i⟩
  have hn : n.val = 2048 * t.val + p.val := h0
  obtain rfl : d = q := Fin.ext h1
  refine (payload_at (iblk m c 0 t) (iblk m c 1 t) (iblk m c 2 t) p d).trans ?_
  show _ = kernelAt (V m c main_arg0) (V m c main_arg1) (V m c main_arg2) n d
  unfold kernelAt
  exact congrArg (clean .one) (congrArg₂ (· * ·)
    (congrArg₂ (· + ·)
      (Finset.sum_congr rfl fun k _ => congrArg₂ (· * ·) (xblock_at m c t p k n hn) (wblock_at m c t k d))
      (Finset.sum_congr rfl fun k _ => bblock_at m c t k d)) rfl)

/-- WHAT POINT `t` WRITES BACK is block `t` of `kernelFn` of the argument arrays as the region finds them. -/
theorem flushed_eq (c : Dev nD) (t : Fin cfg0.N) :
    (dats m 0 c).flushed 3 t
      = ((cfg0.win 3).blk t).view.read (Elt Ideal) (kernelFn (V m c main_arg0) (V m c main_arg1) (V m c main_arg2)) := by
  rw [Cert.KernelIdeal.Value.flushed3]
  unfold out0_3
  rw [View.canon_unit_zero zero_offsets]
  simp only [View.ld_unit_zero (S := S2048x256) zero_offsets, View.ld_unit_zero (S := S256x64) zero_offsets]
  obtain ⟨-, -, -, -, -, -, e0, e1⟩ := block_indices t
  funext j
  show k0_pay1 (F := Ideal) (iblk m c 0 t) (iblk m c 1 t) (iblk m c 2 t) j
    = kernelFn (V m c main_arg0) (V m c main_arg1) (V m c main_arg2) (((cfg0.win 3).blk t).view.emb j)
  refine block_entry m c t j _ ?_ ?_
  · show win0_3.index t 0 * 2048 + 1 * (j 0).val = 2048 * t.val + (j 0).val
    rw [e0]; omega
  · show win0_3.index t 1 * 64 + 1 * (j 1).val = (j 1).val
    rw [e1]; omega

/-- An entry of the result is in point `t`'s block iff each coordinate is in the block's range on its axis. -/
theorem mem_block (t : Fin cfg0.N) (i : S8192x64.Idx) :
    i ∈ ((cfg0.win 3).blk t).view.set ↔ ∀ a : Fin 2, win0_3.index t a * S2048x64.size a ≤ (i a).val ∧ (i a).val < win0_3.index t a * S2048x64.size a + S2048x64.size a := by
  show i ∈ ((View.whole main_v0).slice (win0_3.rect t)).set ↔ _
  rw [View.set_slice_whole, Rect.mem_set_unit]
  exact Iff.rfl

/-- Every entry of the result lies in the block of a point that writes back: row `r` in block `r / 2048`. -/
theorem covered (i : S8192x64.Idx) : ∃ t : Fin cfg0.N, (cfg0.win 3).flush t = true ∧ i ∈ ((cfg0.win 3).blk t).view.set := by
  have hi0 : (i 0).val < 8192 := idx2_lt0 i
  have hi1 : (i 1).val < 64 := idx2_lt1 i
  have ht : (i 0).val / 2048 < cfg0.N := by rw [show cfg0.N = 4 from N_0]; omega
  refine ⟨⟨(i 0).val / 2048, ht⟩, flush0_3 _, ?_⟩
  obtain ⟨-, -, -, -, -, -, e0, e1⟩ := block_indices ⟨(i 0).val / 2048, ht⟩
  rw [mem_block]
  intro a
  match a with
  | ⟨0, _⟩ =>
    show win0_3.index ⟨(i 0).val / 2048, ht⟩ 0 * 2048 ≤ (i 0).val ∧ (i 0).val < win0_3.index ⟨(i 0).val / 2048, ht⟩ 0 * 2048 + 2048
    rw [e0]; show (i 0).val / 2048 * 2048 ≤ (i 0).val ∧ (i 0).val < (i 0).val / 2048 * 2048 + 2048; omega
  | ⟨1, _⟩ =>
    show win0_3.index ⟨(i 0).val / 2048, ht⟩ 1 * 64 ≤ (i 1).val ∧ (i 1).val < win0_3.index ⟨(i 0).val / 2048, ht⟩ 1 * 64 + 64
    rw [e1]; omega

/-- THE RESULT ARRAY after the run is `kernelFn` of the three argument arrays. -/
theorem final (c : Dev nD) :
    (dats m 0 c).arrAt 3 cfg0.N
      = kernelFn (m ((c : Thread nD τ).loc main_arg0)) (m ((c : Thread nD τ).loc main_arg1)) (m ((c : Thread nD τ).loc main_arg2)) :=
  (dats m 0 c).arrAt_eq_of_cover 3 (kernelFn (V m c main_arg0) (V m c main_arg1) (V m c main_arg2))
    (fun t _ => flushed_eq m c t) covered

/-- The run, read: every weakly fair execution ends with the result array at `kernelFn` of the arguments and the
    arguments unchanged. -/
theorem run : θ_run defs (onTc (τ := τ) (main (F := Ideal))) ⟨m, fun _ => 0, ρ⟩ fun r => ∀ c : Dev nD,
      r.2.mem ((c : Thread nD τ).loc main_v0)
        = kernelFn (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩)
    (Cert.KernelIdeal.Value.run_blocks m ρ)

end Cert.KernelIdeal.Hand

end
-- ==== Proof.ReferenceLine.lean ====
/-
  The reference program read back as a straight line.  Its @main broadcasts `x` along the feature axis of the
  output and `W`, `b` along the row axis, multiplies and adds — one [8192, 256, 64] array whose entry (n, k, d) is
  `x[n,k] · W[k,d] + b[k,d]` —, cleans that array (`nan_to_num`: three selects, each through the helper `_where`,
  which broadcasts its scalar and selects), sums it over the middle axis from zero and divides by the broadcast `256`.
  With the two helper functions unfolded at their calls that is twenty-nine tensor operations in a row; every weakly
  fair execution runs them in order, so the result buffer ends at their composition applied to the arguments
  (`resultTerm`) and the arguments are untouched.
-/
import proofs.«124771_j25228637896776_1_alg».proof.Proof.Gen.ReferenceIdeal
import Idealize.ShloMosaic.Lib.StableHlo.Run

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the calls unfolded: eight of its own that build `x · W + b`; `nan_to_num`'s
    sixteen (the self-comparison, the zero, `_where`'s broadcast and select; `+inf`, its broadcast, the comparison,
    the largest float, `_where`'s two; the same four and two for `-inf` and the smallest float); then the zero, the
    sum over the middle axis, `256`, its broadcast and the quotient. -/
abbrev ops : List (HloOp τ sig (Elt F)) :=
  [ unary main_arg0 main_v0 (broadcastInDim S8192x256x1 ![0, 1] bcast_S8192x256_S8192x256x1_0_1 : (⟨S8192x256, .f32⟩ : BufTy).Contents (Elt F) → (⟨S8192x256x1, .f32⟩ : BufTy).Contents (Elt F)),
    unary main_arg1 main_v1 (broadcastInDim S1x256x64 ![1, 2] bcast_S256x64_S1x256x64_1_2 : (⟨S256x64, .f32⟩ : BufTy).Contents (Elt F) → (⟨S1x256x64, .f32⟩ : BufTy).Contents (Elt F)),
    unary main_v0 main_v2 (broadcastInDim S8192x256x64 ![0, 1, 2] bcast_S8192x256x1_S8192x256x64_0_1_2 : (⟨S8192x256x1, .f32⟩ : BufTy).Contents (Elt F) → (⟨S8192x256x64, .f32⟩ : BufTy).Contents (Elt F)),
    unary main_v1 main_v3 (broadcastInDim S8192x256x64 ![0, 1, 2] bcast_S1x256x64_S8192x256x64_0_1_2 : (⟨S1x256x64, .f32⟩ : BufTy).Contents (Elt F) → (⟨S8192x256x64, .f32⟩ : BufTy).Contents (Elt F)),
    binary main_v2 main_v3 main_v4 (mulf : (⟨S8192x256x64, .f32⟩ : BufTy).Contents (Elt F) → (⟨S8192x256x64, .f32⟩ : BufTy).Contents (Elt F) → (⟨S8192x256x64, .f32⟩ : BufTy).Contents (Elt F)),
    unary main_arg2 main_v5 (broadcastInDim S1x256x64 ![1, 2] bcast_S256x64_S1x256x64_1_2 : (⟨S256x64, .f32⟩ : BufTy).Contents (Elt F) → (⟨S1x256x64, .f32⟩ : BufTy).Contents (Elt F)),
    unary main_v5 main_v6 (broadcastInDim S8192x256x64 ![0, 1, 2] bcast_S1x256x64_S8192x256x64_0_1_2 : (⟨S1x256x64, .f32⟩ : BufTy).Contents (Elt F) → (⟨S8192x256x64, .f32⟩ : BufTy).Contents (Elt F)),
    binary main_v4 main_v6 main_v7 (addf : (⟨S8192x256x64, .f32⟩ : BufTy).Contents (Elt F) → (⟨S8192x256x64, .f32⟩ : BufTy).Contents (Elt F) → (⟨S8192x256x64, .f32⟩ : BufTy).Contents (Elt F)),
    TRef.binary (.of main_v7) (.of main_v7) main_call0.v0 (cmpf .une),
    TRef.nullary main_call0.cst (constant S_ .f32 0x00000000#32),
    TRef.unary main_call0.cst main_call0.call0.v0 (broadcastInDim S8192x256x64 ![] bcast_S_S8192x256x64),
    TRef.ternary main_call0.v0 main_call0.call0.v0 (.of main_v7) main_call0.call0.v1 select,
    TRef.nullary main_call0.cst_0 (constant S_ .f32 0x7F800000#32),
    TRef.unary main_call0.cst_0 main_call0.v2 (broadcastInDim S8192x256x64 ![] bcast_S_S8192x256x64),
    TRef.binary main_call0.call0.v1 main_call0.v2 main_call0.v3 (cmpf .oeq),
    TRef.nullary main_call0.cst_1 (constant S_ .f32 0x7F7FFFFF#32),
    TRef.unary main_call0.cst_1 main_call0.call1.v0 (broadcastInDim S8192x256x64 ![] bcast_S_S8192x256x64),
    TRef.ternary main_call0.v3 main_call0.call1.v0 main_call0.call0.v1 main_call0.call1.v1 select,
    TRef.nullary main_call0.cst_2 (constant S_ .f32 0xFF800000#32),
    TRef.unary main_call0.cst_2 main_call0.v5 (broadcastInDim S8192x256x64 ![] bcast_S_S8192x256x64),
    TRef.binary main_call0.call1.v1 main_call0.v5 main_call0.v6 (cmpf .oeq),
    TRef.nullary main_call0.cst_3 (constant S_ .f32 0xFF7FFFFF#32),
    TRef.unary main_call0.cst_3 main_call0.call2.v0 (broadcastInDim S8192x256x64 ![] bcast_S_S8192x256x64),
    TRef.ternary main_call0.v6 main_call0.call2.v0 main_call0.call1.v1 main_call0.call2.v1 select,
    nullary main_cst (constant S_ .f32 0x00000000#32),
    binary main_v8 main_cst main_v9 ((fun x v => Host.reduceAdd x v reducesTo_S8192x256x64_S8192x64_d1 h_S_) : (⟨S8192x256x64, .f32⟩ : BufTy).Contents (Elt F) → (⟨S_, .f32⟩ : BufTy).Contents (Elt F) → (⟨S8192x64, .f32⟩ : BufTy).Contents (Elt F)),
    nullary main_cst_0 (constant S_ .f32 0x43800000#32),
    unary main_cst_0 main_v10 (broadcastInDim S8192x64 ![] bcast_S_S8192x64 : (⟨S_, .f32⟩ : BufTy).Contents (Elt F) → (⟨S8192x64, .f32⟩ : BufTy).Contents (Elt F)),
    binary main_v9 main_v10 main_v11 (Host.divf : (⟨S8192x64, .f32⟩ : BufTy).Contents (Elt F) → (⟨S8192x64, .f32⟩ : BufTy).Contents (Elt F) → (⟨S8192x64, .f32⟩ : BufTy).Contents (Elt F)) ]

set_option maxRecDepth 1024 in
/-- @main is that straight line: the two helpers unfolded at their calls, both sides are one chain of steps once
    sequencing is reassociated. -/
theorem main_eq (c : Dev nD) : main (F := F) c = seq ops := by
  simp only [main, fn_nan_to_num.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., unary_bufs_sub .., unary_bufs_sub .., unary_bufs_sub .., binary_bufs_sub .., unary_bufs_sub ..,
    unary_bufs_sub .., binary_bufs_sub .., binary_bufs_sub .., nullary_bufs_sub .., unary_bufs_sub .., ternary_bufs_sub ..,
    nullary_bufs_sub .., unary_bufs_sub .., binary_bufs_sub .., nullary_bufs_sub .., unary_bufs_sub .., ternary_bufs_sub ..,
    nullary_bufs_sub .., unary_bufs_sub .., binary_bufs_sub .., nullary_bufs_sub .., unary_bufs_sub .., ternary_bufs_sub ..,
    nullary_bufs_sub .., binary_bufs_sub .., nullary_bufs_sub .., unary_bufs_sub .., binary_bufs_sub ..⟩

/-- The cleaned array: the three selects of `nan_to_num` over a whole [8192, 256, 64] array. -/
def cleaned (y : (⟨S8192x256x64, .f32⟩ : BufTy).Contents (Elt F)) : (⟨S8192x256x64, .f32⟩ : BufTy).Contents (Elt F) :=
  let c0 := select (cmpf .une y y) (broadcastInDim S8192x256x64 ![] bcast_S_S8192x256x64 (constant S_ .f32 0x00000000#32)) y
  let c1 := select (cmpf .oeq c0 (broadcastInDim S8192x256x64 ![] bcast_S_S8192x256x64 (constant S_ .f32 0x7F800000#32)))
    (broadcastInDim S8192x256x64 ![] bcast_S_S8192x256x64 (constant S_ .f32 0x7F7FFFFF#32)) c0
  select (cmpf .oeq c1 (broadcastInDim S8192x256x64 ![] bcast_S_S8192x256x64 (constant S_ .f32 0xFF800000#32)))
    (broadcastInDim S8192x256x64 ![] bcast_S_S8192x256x64 (constant S_ .f32 0xFF7FFFFF#32)) c1

/-- The array before cleaning: `x` and `W`, `b` broadcast to [8192, 256, 64], multiplied and added. -/
def lines (x : (⟨S8192x256, .f32⟩ : BufTy).Contents (Elt F)) (W b : (⟨S256x64, .f32⟩ : BufTy).Contents (Elt F)) : (⟨S8192x256x64, .f32⟩ : BufTy).Contents (Elt F) :=
  addf (mulf (broadcastInDim S8192x256x64 ![0, 1, 2] bcast_S8192x256x1_S8192x256x64_0_1_2 (broadcastInDim S8192x256x1 ![0, 1] bcast_S8192x256_S8192x256x1_0_1 x))
      (broadcastInDim S8192x256x64 ![0, 1, 2] bcast_S1x256x64_S8192x256x64_0_1_2 (broadcastInDim S1x256x64 ![1, 2] bcast_S256x64_S1x256x64_1_2 W)))
    (broadcastInDim S8192x256x64 ![0, 1, 2] bcast_S1x256x64_S8192x256x64_0_1_2 (broadcastInDim S1x256x64 ![1, 2] bcast_S256x64_S1x256x64_1_2 b))

/-- The reference's result as one term of its three arguments. -/
def resultTerm (x : (⟨S8192x256, .f32⟩ : BufTy).Contents (Elt F)) (W b : (⟨S256x64, .f32⟩ : BufTy).Contents (Elt F)) :
    (⟨S8192x64, .f32⟩ : BufTy).Contents (Elt F) :=
  Host.divf (Host.reduceAdd (cleaned (lines x W b)) (constant S_ .f32 0x00000000#32) reducesTo_S8192x256x64_S8192x64_d1 h_S_)
    (broadcastInDim S8192x64 ![] bcast_S_S8192x64 (constant S_ .f32 0x43800000#32))

set_option maxRecDepth 8192 in
set_option maxHeartbeats 1000000 in
/-- The fold of the operations at the result buffer is `resultTerm` of the fold's starting contents at the arguments. -/
theorem result_eq (V : Valuation τ sig (Elt F)) :
    after ops V (main_v11 : DevRef τ sig)
      = resultTerm (V (main_arg0 : DevRef τ sig)) (V (main_arg1 : DevRef τ sig)) (V (main_arg2 : DevRef τ sig)) := by
  after_results_simp
  rfl

theorem arg0_eq (V : Valuation τ sig (Elt F)) : after ops V (main_arg0 : DevRef τ sig) = V (main_arg0 : DevRef τ sig) := by
  after_results
theorem arg1_eq (V : Valuation τ sig (Elt F)) : after ops V (main_arg1 : DevRef τ sig) = V (main_arg1 : DevRef τ sig) := by
  after_results
theorem arg2_eq (V : Valuation τ sig (Elt F)) : after ops V (main_arg2 : DevRef τ sig) = V (main_arg2 : DevRef τ sig) := by
  after_results

/-- On every device, for any float values, from any memory with zero counters: every weakly fair execution of @main
    terminates with the result buffer at `resultTerm` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v11) = resultTerm (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v11).trans (result_eq _),
      (h c main_arg0).trans (arg0_eq _),
      (h c main_arg1).trans (arg1_eq _),
      (h c main_arg2).trans (arg2_eq _)⟩)
    (run_seq scopedRefs_eq scopedSems_eq defs main (fun _ => ops) main_eq (fun _ => ops_sub) m ρ)

end Cert.ReferenceIdeal.Line

end
-- ==== Proof.ReferenceEntry.lean ====
/-
  The reference's result term read at one entry.  At row `n`, feature `d` the quotient reads the sum and the
  broadcast `256` there; the sum over the middle axis is the initial zero plus the sum over `k` of the cleaned array
  at (n, k, d); cleaning acts entry by entry; and the array before cleaning holds `x[n,k] · W[k,d] + b[k,d]` at
  (n, k, d), because `x` was broadcast along the last axis and `W`, `b` along the first.  So the term at (n, d) is
  the expression `MeanLinear.referenceAt`.
-/
import proofs.«124771_j25228637896776_1_alg».proof.Proof.ReferenceLine
import proofs.«124771_j25228637896776_1_alg».proof.Proof.MeanLinear
import Idealize.ShloMosaic.Lib.Pipeline.Value
import Idealize.ShloMosaic.Lib.IdealHost

noncomputable section

open scoped BigOperators

namespace Cert.ReferenceIdeal.Entry

open Cert.ReferenceIdeal Cert.ReferenceIdeal.Gen Cert.ReferenceIdeal.Line Cert.MeanLinear
open Idealize.ShloMosaic Idealize.ShloMosaic.ValueIdx

/-- `x` broadcast to [8192, 256, 64] reads `x[n,k]` at (n, k, d): first a unit last axis is added, then it is
    stretched over the features. -/
theorem x_broadcast_at (x : FVec Ideal S8192x256 .f32) (n : Fin 8192) (k : Fin 256) (d : Fin 64) :
    broadcastInDim S8192x256x64 ![0, 1, 2] bcast_S8192x256x1_S8192x256x64_0_1_2
        (broadcastInDim S8192x256x1 ![0, 1] bcast_S8192x256_S8192x256x1_0_1 x) (ix3 n k d) = x (ix2 n k) := by
  refine (broadcastInDim_apply _ _ _ (ix3 n k d) (ix3 n k (0 : Fin 1)) fun a => ?_).trans
    (broadcastInDim_apply _ _ x (ix3 n k (0 : Fin 1)) (ix2 n k) fun a => ?_)
  · match a with
    | ⟨0, _⟩ => rfl
    | ⟨1, _⟩ => rfl
    | ⟨2, _⟩ => rfl
  · match a with
    | ⟨0, _⟩ => rfl
    | ⟨1, _⟩ => rfl

/-- A [256, 64] array broadcast to [8192, 256, 64] reads its entry (k, d) at (n, k, d): first a unit leading axis
    is added, then it is stretched over the rows. -/
theorem w_broadcast_at (w : FVec Ideal S256x64 .f32) (n : Fin 8192) (k : Fin 256) (d : Fin 64) :
    broadcastInDim S8192x256x64 ![0, 1, 2] bcast_S1x256x64_S8192x256x64_0_1_2
        (broadcastInDim S1x256x64 ![1, 2] bcast_S256x64_S1x256x64_1_2 w) (ix3 n k d) = w (ix2 k d) := by
  refine (broadcastInDim_apply _ _ _ (ix3 n k d) (ix3 (0 : Fin 1) k d) fun a => ?_).trans
    (broadcastInDim_apply _ _ w (ix3 (0 : Fin 1) k d) (ix2 k d) fun a => ?_)
  · match a with
    | ⟨0, _⟩ => rfl
    | ⟨1, _⟩ => rfl
    | ⟨2, _⟩ => rfl
  · match a with
    | ⟨0, _⟩ => rfl
    | ⟨1, _⟩ => rfl

/-- The array before cleaning holds the per-feature line `x[n,k] · W[k,d] + b[k,d]` at (n, k, d). -/
theorem lines_at (x : FVec Ideal S8192x256 .f32) (W b : FVec Ideal S256x64 .f32) (n : Fin 8192) (k : Fin 256) (d : Fin 64) :
    lines (F := Ideal) x W b (ix3 n k d) = x (ix2 n k) * W (ix2 k d) + b (ix2 k d) := by
  unfold lines
  rw [addf_apply, mulf_apply, x_broadcast_at, w_broadcast_at, w_broadcast_at]

/-- Cleaning a whole array cleans each entry. -/
theorem cleaned_at (y : FVec Ideal S8192x256x64 .f32) (i : S8192x256x64.Idx) :
    cleaned (F := Ideal) y i = clean .une (y i) := rfl

/-- The shape fact that names the summed axis's coordinate. -/
theorem reduces_mid : S8192x256x64.Reduces [1] S8192x64 := by decide

/-- THE REFERENCE'S RESULT AT (n, d) is the expression `referenceAt`. -/
theorem resultTerm_at (x : FVec Ideal S8192x256 .f32) (W b : FVec Ideal S256x64 .f32) (n : Fin 8192) (d : Fin 64) :
    resultTerm (F := Ideal) x W b (ix2 n d) = referenceAt x W b n d := by
  unfold resultTerm referenceAt
  rw [hostDivf_apply, hostReduceAdd_apply, broadcastInDim_scalar_apply, Ideal.hostReduceAdd_single _ reduces_mid]
  refine congrArg₂ Ideal.div (congrArg₂ (· + ·) rfl (Finset.sum_congr rfl fun (k : Fin 256) _ => ?_)) rfl
  have e : reduces_mid.lift (ix2 n d) k = ix3 n k d := funext fun a => Fin.ext (by
    match a with
    | ⟨0, _⟩ => rfl
    | ⟨1, _⟩ => rfl
    | ⟨2, _⟩ => rfl)
  rw [e]
  exact (cleaned_at _ _).trans (congrArg (clean .une) (lines_at x W b n k d))

/-- So the reference's result array is `referenceFn` of its arguments. -/
theorem resultTerm_eq (x : FVec Ideal S8192x256 .f32) (W b : FVec Ideal S256x64 .f32) :
    resultTerm (F := Ideal) x W b = referenceFn x W b := by
  funext i
  obtain ⟨n, d, rfl⟩ : ∃ (n : Fin 8192) (d : Fin 64), i = ix2 n d := ⟨i 0, i 1, eq_ix2 i⟩
  exact resultTerm_at x W b n d

end Cert.ReferenceIdeal.Entry

end
-- ==== Proof.RealInputs.lean ====
/-
  The precondition read back.  It says, of each of the three arrays, that the conjunction over all entries of
  "the absolute value is below +∞" is true.  A conjunction that is true is true of each conjunct, and on the
  extended reals `max v (-v) < ⊤` fails at both infinities, so it leaves exactly the real numbers: under the
  precondition every entry of every array is a real number.
-/
import proofs.«124771_j25228637896776_1_alg».proof.Pre_finite_inputs
import proofs.«124771_j25228637896776_1_alg».proof.Proof.Gen.Pre_finite_inputs
import proofs.«124771_j25228637896776_1_alg».proof.Proof.MeanLinear
import Idealize.ShloMosaic.Lib.ReduceAll
import Idealize.ShloMosaic.Lib.ValueIdx

noncomputable section

namespace Cert.Pre_finite_inputs.Reals

open Cert.Pre_finite_inputs Cert.Pre_finite_inputs.Gen Cert.MeanLinear
open Idealize.ShloMosaic Idealize.ShloMosaic.ValueIdx

/-- The scalar shape has one index. -/
instance : Subsingleton S_.Idx := ⟨fun a b => funext fun d => d.elim0⟩

/-- An extended real whose absolute value compares below the word of `+inf` is a real number. -/
theorem real_of_abs_lt_inf (v : EReal)
    (h : Ideal.cmp .olt (max v (-v)) (Ideal.ofBits .f32 0x7F800000#32) = 1#1) : ∃ r : ℝ, v = (r : EReal) := by
  rw [ofBits_posInf] at h
  induction v using EReal.rec with
  | bot => simp [Ideal.cmp] at h
  | top => simp [Ideal.cmp] at h
  | coe r => exact ⟨r, rfl⟩

/-- Under the precondition every entry of `x`, of `W` and of `b` is a real number. -/
theorem of_pre (x : FVec Ideal S8192x256 .f32) (W b : FVec Ideal S256x64 .f32)
    (h : fn (F := Ideal) x W b = fun _ => 1#1) :
    (∀ i, ∃ r : ℝ, x i = (r : EReal)) ∧ (∀ i, ∃ r : ℝ, W i = (r : EReal)) ∧ (∀ i, ∃ r : ℝ, b i = (r : EReal)) := by
  have h0 := congrFun h ix0
  dsimp only [fn] at h0
  obtain ⟨hxw, hb⟩ := IntOp.andi_eq_one.1 h0
  obtain ⟨hx, hw⟩ := IntOp.andi_eq_one.1 hxw
  exact ⟨fun i => real_of_abs_lt_inf _ (Host.reduce_andi_all _ _ _ _ _ hx i),
    fun i => real_of_abs_lt_inf _ (Host.reduce_andi_all _ _ _ _ _ hw i),
    fun i => real_of_abs_lt_inf _ (Host.reduce_andi_all _ _ _ _ _ hb i)⟩

end Cert.Pre_finite_inputs.Reals

end
-- ==== Proof.lean ====
/-
  The certificate: a per-feature linear layer followed by a mean, `out[n,d] = mean_k clean(x[n,k]·W[k,d] + b[k,d])`,
  against a kernel that computes it as one matrix product, `clean(((x·W)[n,d] + ∑_k b[k,d]) · 2⁻⁸)`, on four row blocks.

  Frames.  The kernel's two prints run by their generated frame.  The reference has no kernel: its @main is a straight
  line of tensor operations (Proof/ReferenceLine.lean), which always runs and leaves the arguments alone.

  Idealization.  The idealized print is the kernel's own text read over the extended reals; no rewrite is recorded
  between the two prints, so the preservation conjunct is `True`.

  Values.  At the ideal instance the kernel's result array is `kernelFn` of the arguments (Proof/KernelValue.lean,
  Proof/KernelArray.lean) and the reference's is `referenceFn` (Proof/ReferenceEntry.lean).  The precondition makes every
  input entry a real number (Proof/RealInputs.lean); on reals `clean` is the identity, a sum of sums splits, and the
  quotient by 256 is the product with `2⁻⁸` (Proof/MeanLinear.lean), so the two arrays are equal entry by entry.
-/
import proofs.«124771_j25228637896776_1_alg».proof.Defs
import proofs.«124771_j25228637896776_1_alg».proof.Proof.Gen.Kernel
import proofs.«124771_j25228637896776_1_alg».proof.Proof.Gen.Kernel.Skeleton
import proofs.«124771_j25228637896776_1_alg».proof.Proof.Gen.Kernel.Launch
import proofs.«124771_j25228637896776_1_alg».proof.Proof.Gen.Kernel.Points
import proofs.«124771_j25228637896776_1_alg».proof.Proof.Gen.Kernel.Frame
import proofs.«124771_j25228637896776_1_alg».proof.Proof.Gen.KernelIdeal
import proofs.«124771_j25228637896776_1_alg».proof.Proof.Gen.KernelIdeal.Skeleton
import proofs.«124771_j25228637896776_1_alg».proof.Proof.Gen.KernelIdeal.Launch
import proofs.«124771_j25228637896776_1_alg».proof.Proof.Gen.KernelIdeal.Points
import proofs.«124771_j25228637896776_1_alg».proof.Proof.Gen.KernelIdeal.Frame
import proofs.«124771_j25228637896776_1_alg».proof.Proof.Gen.ReferenceIdeal
import proofs.«124771_j25228637896776_1_alg».proof.Proof.Gen.Pre_finite_inputs
import proofs.«124771_j25228637896776_1_alg».proof.Proof.KernelArray
import proofs.«124771_j25228637896776_1_alg».proof.Proof.ReferenceEntry
import proofs.«124771_j25228637896776_1_alg».proof.Proof.RealInputs
import Idealize.ShloMosaic.Adequacy
import Idealize.ShloMosaic.Init

noncomputable section

namespace Cert.Proof

open Idealize.ShloMosaic Idealize.SL.Sem

/-- The word-level kernel runs and leaves its arguments alone. -/
theorem frame_kernel : Cert.frame_Kernel := fun m ρ _ => Cert.Kernel.Gen.frame m ρ

/-- So does its idealized print. -/
theorem frame_kernelIdeal : Cert.frame_KernelIdeal := fun m ρ _ => Cert.KernelIdeal.Gen.frame m ρ

/-- The reference is a straight line of tensor operations: it runs, and no operation writes an argument. -/
theorem frame_reference : Cert.frame_ReferenceIdeal := fun m ρ _ =>
  (θ_run Cert.ReferenceIdeal.defs _ _).mono (fun _ h c => (h c).2) (Cert.ReferenceIdeal.Line.run (F := Ideal) m ρ)

/-- From memories that agree on the arguments the two programs end with equal result arrays: the kernel's is
    `kernelFn` of the arguments, the reference's `referenceFn`, and on the real entries the precondition grants the
    two are one function. -/
theorem algebraic : Cert.algebraic_KernelIdeal_ReferenceIdeal := by
  intro m ρ m' ρ' hpre hagree
  refine ⟨_, Cert.KernelIdeal.Hand.run m ρ, ?_⟩
  refine (θ_run Cert.ReferenceIdeal.defs _ _).mono (fun _ h c => ⟨(h c).1.trans ?_, (h c).2⟩)
    (Cert.ReferenceIdeal.Line.run (F := Ideal) m' ρ')
  obtain ⟨hx, hW, hb⟩ := Cert.Pre_finite_inputs.Reals.of_pre _ _ _ (hpre c)
  rw [(hagree c).1, (hagree c).2.1, (hagree c).2.2, Cert.ReferenceIdeal.Entry.resultTerm_eq]
  exact Cert.MeanLinear.referenceFn_eq_kernelFn _ _ _ hx hW hb

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
